-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S27x2x1 : Shape := ⟨3, ![27, 2, 1]⟩
abbrev S13500000 : Shape := ⟨1, ![13500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S27x2x1 : S_.BroadcastsInDim S27x2x1 (![] : Fin 0 → Fin S27x2x1.rank)
  reducesTo_S27x2x1_S_d0_1_2 : S27x2x1.ReducesTo [0, 1, 2] S_

variable [Facts]

def fn {F : FTy → Type} [FloatOps F] (main_arg0 : FVec F S500000x128 .f32) (main_arg1 : FVec F S27x2x1 .f32) (main_arg2 : IVec S13500000 32) (main_arg3 : IVec S13500000 32) (main_arg4 : IVec S13500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S27x2x1 .f32 := Host.absf main_arg1
  let main_cst_0 : FVec F S_ .f32 := constant S_ .f32 0x7F800000#32
  let main_v5 : FVec F S27x2x1 .f32 := broadcastInDim S27x2x1 ![] bcast_S_S27x2x1 main_cst_0
  let main_v6 : IVec S27x2x1 1 := cmpf .olt main_v4 main_v5
  let main_c_1 : IVec S_ 1 := constantI S_ 1 1#1
  let main_v7 : IVec S_ 1 := (fun x v => Host.reduce IntOp.andi x v reducesTo_S27x2x1_S_d0_1_2 h_S_) main_v6 main_c_1
  let main_v8 : IVec S_ 1 := andi main_v3 main_v7
  main_v8
-- ==== Kernel.lean ====
abbrev S500000x128 : Shape := ⟨2, ![500000, 128]⟩
abbrev S27x2x1 : Shape := ⟨3, ![27, 2, 1]⟩
abbrev S13500000 : Shape := ⟨1, ![13500000]⟩
abbrev S500000x1 : Shape := ⟨2, ![500000, 1]⟩
abbrev S10000x128 : Shape := ⟨2, ![10000, 128]⟩
abbrev S10000x1 : Shape := ⟨2, ![10000, 1]⟩
abbrev S10000 : Shape := ⟨1, ![10000]⟩
abbrev S500000 : Shape := ⟨1, ![500000]⟩
abbrev S27x1x1 : Shape := ⟨3, ![27, 1, 1]⟩
abbrev S27 : Shape := ⟨1, ![27]⟩
abbrev S_ : Shape := ⟨0, ![]⟩
abbrev S13500000x1 : Shape := ⟨2, ![13500000, 1]⟩
abbrev S500001 : Shape := ⟨1, ![500001]⟩

abbrev nBuf : Space → Nat
  | .hbm => 59
  | .vmem => 12
  | .smem => 0
  | _ => 0

abbrev bufTy : (tb : Table) → Fin (tcTables nBuf tb) → BufTy
  | .hbm, ⟨0, _⟩ => ⟨S500000x128, .f32⟩
  | .hbm, ⟨1, _⟩ => ⟨S27x2x1, .f32⟩
  | .hbm, ⟨2, _⟩ => ⟨S13500000, .i32⟩
  | .hbm, ⟨3, _⟩ => ⟨S13500000, .i32⟩
  | .hbm, ⟨4, _⟩ => ⟨S13500000, .i32⟩
  | .hbm, ⟨5, _⟩ => ⟨S500000x1, .f32⟩
  | .hbm, ⟨6, _⟩ => ⟨S500000x1, .f32⟩
  | .hbm, ⟨7, _⟩ => ⟨S500000, .f32⟩
  | .hbm, ⟨8, _⟩ => ⟨S500000, .f32⟩
  | .hbm, ⟨9, _⟩ => ⟨S27x1x1, .f32⟩
  | .hbm, ⟨10, _⟩ => ⟨S27, .f32⟩
  | .hbm, ⟨11, _⟩ => ⟨S27x1x1, .f32⟩
  | .hbm, ⟨12, _⟩ => ⟨S27, .f32⟩
  | .hbm, ⟨13, _⟩ => ⟨S_, .i32⟩
  | .hbm, ⟨14, _⟩ => ⟨S13500000, .i32⟩
  | .hbm, ⟨15, _⟩ => ⟨S13500000, .i1⟩
  | .hbm, ⟨16, _⟩ => ⟨S_, .i32⟩
  | .hbm, ⟨17, _⟩ => ⟨S13500000, .i32⟩
  | .hbm, ⟨18, _⟩ => ⟨S13500000, .i32⟩
  | .hbm, ⟨19, _⟩ => ⟨S13500000, .i32⟩
  | .hbm, ⟨20, _⟩ => ⟨S13500000x1, .i32⟩
  | .hbm, ⟨21, _⟩ => ⟨S13500000, .f32⟩
  | .hbm, ⟨22, _⟩ => ⟨S_, .i32⟩
  | .hbm, ⟨23, _⟩ => ⟨S13500000, .i32⟩
  | .hbm, ⟨24, _⟩ => ⟨S13500000, .i1⟩
  | .hbm, ⟨25, _⟩ => ⟨S_, .i32⟩
  | .hbm, ⟨26, _⟩ => ⟨S13500000, .i32⟩
  | .hbm, ⟨27, _⟩ => ⟨S13500000, .i32⟩
  | .hbm, ⟨28, _⟩ => ⟨S13500000, .i32⟩
  | .hbm, ⟨29, _⟩ => ⟨S13500000x1, .i32⟩
  | .hbm, ⟨30, _⟩ => ⟨S13500000, .f32⟩
  | .hbm, ⟨31, _⟩ => ⟨S_, .i32⟩
  | .hbm, ⟨32, _⟩ => ⟨S13500000, .i32⟩
  | .hbm, ⟨33, _⟩ => ⟨S13500000, .i1⟩
  | .hbm, ⟨34, _⟩ => ⟨S_, .i32⟩
  | .hbm, ⟨35, _⟩ => ⟨S13500000, .i32⟩
  | .hbm, ⟨36, _⟩ => ⟨S13500000, .i32⟩
  | .hbm, ⟨37, _⟩ => ⟨S13500000, .i32⟩
  | .hbm, ⟨38, _⟩ => ⟨S13500000x1, .i32⟩
  | .hbm, ⟨39, _⟩ => ⟨S13500000, .f32⟩
  | .hbm, ⟨40, _⟩ => ⟨S_, .i32⟩
  | .hbm, ⟨41, _⟩ => ⟨S13500000, .i32⟩
  | .hbm, ⟨42, _⟩ => ⟨S13500000, .i1⟩
  | .hbm, ⟨43, _⟩ => ⟨S_, .i32⟩
  | .hbm, ⟨44, _⟩ => ⟨S13500000, .i32⟩
  | .hbm, ⟨45, _⟩ => ⟨S13500000, .i32⟩
  | .hbm, ⟨46, _⟩ => ⟨S13500000, .i32⟩
  | .hbm, ⟨47, _⟩ => ⟨S13500000x1, .i32⟩
  | .hbm, ⟨48, _⟩ => ⟨S13500000, .f32⟩
  | .hbm, ⟨49, _⟩ => ⟨S13500000, .f32⟩
  | .hbm, ⟨50, _⟩ => ⟨S13500000, .f32⟩
  | .hbm, ⟨51, _⟩ => ⟨S13500000, .f32⟩
  | .hbm, ⟨52, _⟩ => ⟨S_, .f32⟩
  | .hbm, ⟨53, _⟩ => ⟨S500001, .f32⟩
  | .hbm, ⟨54, _⟩ => ⟨S13500000x1, .i32⟩
  | .hbm, ⟨55, _⟩ => ⟨S500001, .f32⟩
  | .hbm, ⟨56, _⟩ => ⟨S500000, .f32⟩
  | .hbm, ⟨57, _⟩ => ⟨S500000x1, .f32⟩
  | .hbm, ⟨58, _⟩ => ⟨S500000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S500000x1_S500000 : S500000x1.ShapeCasts S500000
  slices_S27x2x1_S27x1x1_0_0_0 : S27x2x1.Slices ![0, 0, 0] S27x1x1
  shapeCasts_S27x1x1_S27 : S27x1x1.ShapeCasts S27
  slices_S27x2x1_S27x1x1_0_1_0 : S27x2x1.Slices ![0, 1, 0] S27x1x1
  bcast_S_S13500000 : S_.BroadcastsInDim S13500000 (![] : Fin 0 → Fin S13500000.rank)
  bcast_S13500000_S13500000x1_0 : S13500000.BroadcastsInDim S13500000x1 (![0] : Fin 1 → Fin S13500000x1.rank)
  bcast_S_S500001 : S_.BroadcastsInDim S500001 (![] : Fin 0 → Fin S500001.rank)
  slices_S500001_S500000_0 : S500001.Slices ![0] S500000
  shapeCasts_S500000_S500000x1 : S500000.ShapeCasts S500000x1
  shapeCasts_S10000x1_S10000x1 : S10000x1.ShapeCasts S10000x1
  broadcasts_S10000x1_S10000x128 : S10000x1.Broadcasts S10000x128
  gather_S500000_S13500000x1_S13500000_n_0_n_n_0_1_1_wf : GatherDims.WF S500000 S13500000x1 S13500000 [] [0] [] [0] [] 1 ![1]
  gather_S27_S13500000x1_S13500000_n_0_n_n_0_1_1_wf : GatherDims.WF S27 S13500000x1 S13500000 [] [0] [] [0] [] 1 ![1]
  scatter_S500001_S13500000x1_S13500000_n_0_0_1_wf : ScatterDims.WF S500001 S13500000x1 S13500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S500000x1.size a
  hwx0_2 : ∀ i : grid0.Coords, EltTy.bits .f32 = 32 ∨ (Rect.block (s := S500000x1) S10000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S500000x1.size a
  hwx1_1 : ∀ i : grid1.Coords, EltTy.bits .f32 = 32 ∨ (Rect.block (s := S500000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S500000x128.size a
  hwx1_2 : ∀ i : grid1.Coords, EltTy.bits .f32 = 32 ∨ (Rect.block (s := S500000x128) S10000x128.size (cc1_transform_2 i) (hinb1_2 i)).WholeWords (EltTy.packing .f32)

variable [Facts₀]

def gather_S500000_S13500000x1_S13500000_n_0_n_n_0_1_1 : GatherDims S500000 S13500000x1 S13500000 where
  offsetDims := []
  collapsedSliceDims := [0]
  operandBatchingDims := []
  startIndicesBatchingDims := []
  startIndexMap := [0]
  indexVectorDim := 1
  sliceSizes := ![1]
  wf := gather_S500000_S13500000x1_S13500000_n_0_n_n_0_1_1_wf
def gather_S27_S13500000x1_S13500000_n_0_n_n_0_1_1 : GatherDims S27 S13500000x1 S13500000 where
  offsetDims := []
  collapsedSliceDims := [0]
  operandBatchingDims := []
  startIndicesBatchingDims := []
  startIndexMap := [0]
  indexVectorDim := 1
  sliceSizes := ![1]
  wf := gather_S27_S13500000x1_S13500000_n_0_n_n_0_1_1_wf
def scatter_S500001_S13500000x1_S13500000_n_0_0_1 : ScatterDims S500001 S13500000x1 S13500000 where
  updateWindowDims := []
  insertedWindowDims := [0]
  scatterDimsToOperandDims := [0]
  indexVectorDim := 1
  wf := scatter_S500001_S13500000x1_S13500000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S10000x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S500000x128 : Shape := ⟨2, ![500000, 128]⟩
abbrev S27x2x1 : Shape := ⟨3, ![27, 2, 1]⟩
abbrev S13500000 : Shape := ⟨1, ![13500000]⟩
abbrev S_ : Shape := ⟨0, ![]⟩
abbrev S500000 : Shape := ⟨1, ![500000]⟩
abbrev S500000x1 : Shape := ⟨2, ![500000, 1]⟩
abbrev S500000x2 : Shape := ⟨2, ![500000, 2]⟩
abbrev S13500000x1 : Shape := ⟨2, ![13500000, 1]⟩
abbrev S13500000x2 : Shape := ⟨2, ![13500000, 2]⟩
abbrev S500001 : Shape := ⟨1, ![500001]⟩

abbrev nBuf : Space → Nat
  | .hbm => 57
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S27x2x1, .f32⟩
  | .hbm, ⟨2, _⟩ => ⟨S13500000, .i32⟩
  | .hbm, ⟨3, _⟩ => ⟨S13500000, .i32⟩
  | .hbm, ⟨4, _⟩ => ⟨S13500000, .i32⟩
  | .hbm, ⟨5, _⟩ => ⟨S_, .f32⟩
  | .hbm, ⟨6, _⟩ => ⟨S500000, .f32⟩
  | .hbm, ⟨7, _⟩ => ⟨S_, .f32⟩
  | .hbm, ⟨8, _⟩ => ⟨S500000, .f32⟩
  | .hbm, ⟨9, _⟩ => ⟨S500000, .f32⟩
  | .hbm, ⟨10, _⟩ => ⟨S_, .f32⟩
  | .hbm, ⟨11, _⟩ => ⟨S500000, .f32⟩
  | .hbm, ⟨12, _⟩ => ⟨S500000x1, .f32⟩
  | .hbm, ⟨13, _⟩ => ⟨S500000x1, .f32⟩
  | .hbm, ⟨14, _⟩ => ⟨S500000x2, .f32⟩
  | .hbm, ⟨15, _⟩ => ⟨S_, .i32⟩
  | .hbm, ⟨16, _⟩ => ⟨S13500000, .i32⟩
  | .hbm, ⟨17, _⟩ => ⟨S13500000, .i1⟩
  | .hbm, ⟨18, _⟩ => ⟨S_, .i32⟩
  | .hbm, ⟨19, _⟩ => ⟨S13500000, .i32⟩
  | .hbm, ⟨20, _⟩ => ⟨S13500000, .i32⟩
  | .hbm, ⟨21, _⟩ => ⟨S13500000, .i32⟩
  | .hbm, ⟨22, _⟩ => ⟨S13500000x1, .i32⟩
  | .hbm, ⟨23, _⟩ => ⟨S13500000x2, .f32⟩
  | .hbm, ⟨24, _⟩ => ⟨S_, .i32⟩
  | .hbm, ⟨25, _⟩ => ⟨S13500000, .i32⟩
  | .hbm, ⟨26, _⟩ => ⟨S13500000, .i1⟩
  | .hbm, ⟨27, _⟩ => ⟨S_, .i32⟩
  | .hbm, ⟨28, _⟩ => ⟨S13500000, .i32⟩
  | .hbm, ⟨29, _⟩ => ⟨S13500000, .i32⟩
  | .hbm, ⟨30, _⟩ => ⟨S13500000, .i32⟩
  | .hbm, ⟨31, _⟩ => ⟨S_, .i32⟩
  | .hbm, ⟨32, _⟩ => ⟨S13500000, .i32⟩
  | .hbm, ⟨33, _⟩ => ⟨S13500000, .i32⟩
  | .hbm, ⟨34, _⟩ => ⟨S13500000x1, .i32⟩
  | .hbm, ⟨35, _⟩ => ⟨S13500000x1, .i32⟩
  | .hbm, ⟨36, _⟩ => ⟨S13500000x2, .i32⟩
  | .hbm, ⟨37, _⟩ => ⟨S13500000x2, .f32⟩
  | .hbm, ⟨38, _⟩ => ⟨S13500000x2, .f32⟩
  | .hbm, ⟨39, _⟩ => ⟨S_, .f32⟩
  | .hbm, ⟨40, _⟩ => ⟨S13500000, .f32⟩
  | .hbm, ⟨41, _⟩ => ⟨S_, .f32⟩
  | .hbm, ⟨42, _⟩ => ⟨S500001, .f32⟩
  | .hbm, ⟨43, _⟩ => ⟨S13500000x1, .i32⟩
  | .hbm, ⟨44, _⟩ => ⟨S500001, .f32⟩
  | .hbm, ⟨45, _⟩ => ⟨S500000, .f32⟩
  | .hbm, ⟨46, _⟩ => ⟨S500000, .f32⟩
  | .hbm, ⟨47, _⟩ => ⟨S500000, .f32⟩
  | .hbm, ⟨48, _⟩ => ⟨S_, .f32⟩
  | .hbm, ⟨49, _⟩ => ⟨S500000, .f32⟩
  | .hbm, ⟨50, _⟩ => ⟨S500000, .f32⟩
  | .hbm, ⟨51, _⟩ => ⟨S_, .f32⟩
  | .hbm, ⟨52, _⟩ => ⟨S500000, .f32⟩
  | .hbm, ⟨53, _⟩ => ⟨S500000, .f32⟩
  | .hbm, ⟨54, _⟩ => ⟨S500000x1, .f32⟩
  | .hbm, ⟨55, _⟩ => ⟨S500000x128, .f32⟩
  | .hbm, ⟨56, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  reducesTo_S500000x128_S500000_d1 : S500000x128.ReducesTo [1] S500000
  h_S_ : 0 < S_.numel
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S_S13500000 : S_.BroadcastsInDim S13500000 (![] : Fin 0 → Fin S13500000.rank)
  bcast_S13500000_S13500000x1_0 : S13500000.BroadcastsInDim S13500000x1 (![0] : Fin 1 → Fin S13500000x1.rank)
  concatenates_S13500000x1_S13500000x1_S13500000x2_d1 : Shape.Concatenates [S13500000x1, S13500000x1] S13500000x2 1
  reducesTo_S13500000x2_S13500000_d1 : S13500000x2.ReducesTo [1] S13500000
  bcast_S_S500001 : S_.BroadcastsInDim S500001 (![] : Fin 0 → Fin S500001.rank)
  slices_S500001_S500000_0 : S500001.Slices ![0] S500000
  bcast_S500000x1_S500000x128_0_1 : S500000x1.BroadcastsInDim S500000x128 (![0, 1] : Fin 2 → Fin S500000x128.rank)
  gather_S500000x2_S13500000x1_S13500000x2_1_0_n_n_0_1_12_wf : GatherDims.WF S500000x2 S13500000x1 S13500000x2 [1] [0] [] [0] [] 1 ![1, 2]
  gather_S27x2x1_S13500000x2_S13500000x2_1_02_n_n_02_1_121_wf : GatherDims.WF S27x2x1 S13500000x2 S13500000x2 [1] [0, 2] [] [0, 2] [] 1 ![1, 2, 1]
  scatter_S500001_S13500000x1_S13500000_n_0_0_1_wf : ScatterDims.WF S500001 S13500000x1 S13500000 [] [0] [0] 1

variable [Facts₀]

def gather_S500000x2_S13500000x1_S13500000x2_1_0_n_n_0_1_12 : GatherDims S500000x2 S13500000x1 S13500000x2 where
  offsetDims := [1]
  collapsedSliceDims := [0]
  operandBatchingDims := []
  startIndicesBatchingDims := []
  startIndexMap := [0]
  indexVectorDim := 1
  sliceSizes := ![1, 2]
  wf := gather_S500000x2_S13500000x1_S13500000x2_1_0_n_n_0_1_12_wf
def gather_S27x2x1_S13500000x2_S13500000x2_1_02_n_n_02_1_121 : GatherDims S27x2x1 S13500000x2 S13500000x2 where
  offsetDims := [1]
  collapsedSliceDims := [0, 2]
  operandBatchingDims := []
  startIndicesBatchingDims := []
  startIndexMap := [0, 2]
  indexVectorDim := 1
  sliceSizes := ![1, 2, 1]
  wf := gather_S27x2x1_S13500000x2_S13500000x2_1_02_n_n_02_1_121_wf
def scatter_S500001_S13500000x1_S13500000_n_0_0_1 : ScatterDims S500001 S13500000x1 S13500000 where
  updateWindowDims := []
  insertedWindowDims := [0]
  scatterDimsToOperandDims := [0]
  indexVectorDim := 1
  wf := scatter_S500001_S13500000x1_S13500000_n_0_0_1_wf

class Facts : Prop extends Facts₀ where

variable [Facts]
-- ==== Proof.KernelHost.lean ====
/-
  The host operations between the two launches, as named functions of the arrays they read.
  Each pair p = (kernel offset kidx[p], input row in_idx[p], output row out_idx[p]) contributes
  `a[in] · w₀[k] + m[in] · w₁[k]`, where `a`, `m` are the per-row mean and maximum and `w₀`, `w₁` the
  two columns of the weight; an index below zero is first taken from the axis's end, and a gather
  clamps what is still out of range. The contributions are added into 500001 segments by
  `out_idx`, the last (padding) segment is dropped, and the sums are laid out as a column.
-/
import proofs.«113708_j83717502534258_1_alg».proof.KernelIdeal

noncomputable section

namespace Cert.KernelIdeal.Glue

open Cert.KernelIdeal Idealize.ShloMosaic
open Facts₀ Facts

variable {F : FTy → Type} [FloatOps F] [Facts]

/-- An index below zero counted from the end of an axis of length `n`; other indices unchanged. -/
abbrev wrap (n : BitVec 32) (idx : (⟨S13500000, .i32⟩ : BufTy).Contents (Elt F)) : (⟨S13500000, .i32⟩ : BufTy).Contents (Elt F) :=
  select (cmpi CmpIPredicate.slt idx (broadcastInDim S13500000 ![] bcast_S_S13500000 (constantI S_ 32 0#32)))
    (addi idx (broadcastInDim S13500000 ![] bcast_S_S13500000 (constantI S_ 32 n))) idx

/-- A list of indices as the one-column table a gather or scatter takes. -/
abbrev asColumn (idx : (⟨S13500000, .i32⟩ : BufTy).Contents (Elt F)) : (⟨S13500000x1, .i32⟩ : BufTy).Contents (Elt F) :=
  broadcastInDim S13500000x1 ![0] bcast_S13500000_S13500000x1_0 idx

/-- A one-column array as a flat vector. -/
abbrev colVec (a : (⟨S500000x1, .f32⟩ : BufTy).Contents (Elt F)) : (⟨S500000, .f32⟩ : BufTy).Contents (Elt F) :=
  fun i => shapeCast S500000 a shapeCasts_S500000x1_S500000 i

/-- A flat vector as a one-column array. -/
abbrev vecCol (v : (⟨S500000, .f32⟩ : BufTy).Contents (Elt F)) : (⟨S500000x1, .f32⟩ : BufTy).Contents (Elt F) :=
  fun i => shapeCast S500000x1 v shapeCasts_S500000_S500000x1 i

/-- Column 0 of the weight, `w[:, 0, 0]`, as a flat vector of the 27 offsets. -/
abbrev weight0 (w : (⟨S27x2x1, .f32⟩ : BufTy).Contents (Elt F)) : (⟨S27, .f32⟩ : BufTy).Contents (Elt F) :=
  fun i => shapeCast S27 (extractStridedSlice S27x1x1 ![0, 0, 0] w slices_S27x2x1_S27x1x1_0_0_0) shapeCasts_S27x1x1_S27 i

/-- Column 1 of the weight, `w[:, 1, 0]`. -/
abbrev weight1 (w : (⟨S27x2x1, .f32⟩ : BufTy).Contents (Elt F)) : (⟨S27, .f32⟩ : BufTy).Contents (Elt F) :=
  fun i => shapeCast S27 (extractStridedSlice S27x1x1 ![0, 1, 0] w slices_S27x2x1_S27x1x1_0_1_0) shapeCasts_S27x1x1_S27 i

/-- Every pair's contribution `a[in] · w₀[k] + m[in] · w₁[k]`. -/
abbrev pairSum (a mx : (⟨S500000, .f32⟩ : BufTy).Contents (Elt F)) (w0 w1 : (⟨S27, .f32⟩ : BufTy).Contents (Elt F))
    (kidx inidx : (⟨S13500000, .i32⟩ : BufTy).Contents (Elt F)) : (⟨S13500000, .f32⟩ : BufTy).Contents (Elt F) :=
  addf
    (mulf (Host.gather gather_S500000_S13500000x1_S13500000_n_0_n_n_0_1_1 a (asColumn (wrap 500000#32 inidx)))
      (Host.gather gather_S27_S13500000x1_S13500000_n_0_n_n_0_1_1 w0 (asColumn (wrap 27#32 kidx))))
    (mulf (Host.gather gather_S500000_S13500000x1_S13500000_n_0_n_n_0_1_1 mx (asColumn (wrap 500000#32 inidx)))
      (Host.gather gather_S27_S13500000x1_S13500000_n_0_n_n_0_1_1 w1 (asColumn (wrap 27#32 kidx))))

/-- The contributions added per output row: a scatter-add into 500001 zeros, the padding segment dropped. -/
abbrev segSum (contrib : (⟨S13500000, .f32⟩ : BufTy).Contents (Elt F)) (outidx : (⟨S13500000, .i32⟩ : BufTy).Contents (Elt F)) :
    (⟨S500000, .f32⟩ : BufTy).Contents (Elt F) :=
  extractStridedSlice S500000 ![0]
    (Host.scatterAdd scatter_S500001_S13500000x1_S13500000_n_0_0_1
      (broadcastInDim S500001 ![] bcast_S_S500001 (constant S_ .f32 0x00000000#32)) (asColumn outidx) contrib)
    slices_S500001_S500000_0

end Cert.KernelIdeal.Glue

end
-- ==== Proof.LibColumnCast.lean ====
/-
  Shape casts between a vector and its column forms, read at an index: a cast keeps the row-major
  position, and a unit axis contributes nothing to it.

  * `[a] → [a, 1]` (`shapeCast_a_a1_apply`) and back `[a, 1] → [a]` (`shapeCast_a1_a_apply`);
  * `[a, 1, 1] → [a]` (`shapeCast_a11_a_apply`).
-/
import Idealize.ShloMosaic.Lib.Pipeline.Value
import Idealize.ShloMosaic.Lib.ValueIdx

namespace Cert.LibColumnCast

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, 1, 1]` array cast to the vector `[a]` reads, at `i`, the array at `(i, 0, 0)`. -/
theorem shapeCast_a11_a_apply {a : ℕ} (x : (⟨3, ![a, 1, 1]⟩ : Shape).Idx → α) (h : (⟨3, ![a, 1, 1]⟩ : Shape).ShapeCasts ⟨1, ![a]⟩)
    (i : Fin a) : shapeCast ⟨1, ![a]⟩ x h (ix1 i) = x (ix3 i (0 : Fin 1) (0 : Fin 1)) :=
  shapeCast_apply x h _ _ (by
    rw [Shape.rowMajor_val_three, Shape.rowMajor_val_one]
    show (i.val * 1 + 0) * 1 + 0 = i.val
    omega)

end Cert.LibColumnCast
-- ==== Proof.PoolValue.lean ====
/-
  The first launch, read as a value at the extended reals. Its grid has 50 points; point `t`
  fetches rows 10000·t … 10000·t + 9999 of the feature array and writes back the same rows of two
  one-column arrays. Inside a block the body sums each row's 128 channels and divides by 128, and
  takes each row's maximum from −∞. The 50 blocks tile both results, so after the launch entry
  `(n, 0)` of the first is `(∑ₖ x[n, k]) / 128` and of the second the fold of `max` over `x[n, ·]`.
-/
import proofs.«113708_j83717502534258_1_alg».proof.Proof.Gen.KernelIdeal.Frame
import proofs.«113708_j83717502534258_1_alg».proof.Proof.LibColumnCast
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen Cert.LibColumnCast

variable (V : (c : Dev nD) → (b : Ref sig .tc) → Buf (Elt Ideal) ((c : Thread nD τ).loc b))

theorem hz : (![0, 0] : Fin 2 → Nat) = fun _ => 0 := funext fun a => by fin_cases a <;> rfl

/-- Channel `k` of the feature row that entry `i` of a one-column array stands for. -/
abbrev chan (i : S500000x1.Idx) (k : Fin 128) : S500000x128.Idx := fun a => match a with
  | ⟨0, _⟩ => ⟨(i 0).val, (i 0).isLt⟩
  | ⟨1, _⟩ => ⟨k.val, k.isLt⟩

/-- The same inside one block of 10000 rows. -/
abbrev chanBlk (j : S10000x1.Idx) (k : Fin 128) : S10000x128.Idx := fun a => match a with
  | ⟨0, _⟩ => ⟨(j 0).val, (j 0).isLt⟩
  | ⟨1, _⟩ => ⟨k.val, k.isLt⟩

/-- Each row's mean over its 128 channels, as a column: the row's sum divided by the literal 128. -/
def rowMean (x : S500000x128.Idx → EReal) : S500000x1.Idx → EReal :=
  fun i => FloatOps.divf (F := Ideal) (φ := .f32) (∑ k : Fin 128, x (chan i k)) (FloatOps.ofBits .f32 0x43000000#32)

/-- Each row's maximum over its 128 channels, as a column: the fold of `max` from −∞. -/
def rowMax (x : S500000x128.Idx → EReal) : S500000x1.Idx → EReal :=
  fun i => (Finset.univ : Finset (Fin 128)).fold max (FloatOps.ofBits (F := Ideal) .f32 0xFF800000#32) (fun k => x (chan i k))

/-- The first stored value at a position of the block: the lane sum of that row, cast to a column,
    divided by the splat 128. -/
theorem mean_pay (x0 : Vec Ideal S10000x128 .f32) (j : S10000x1.Idx) :
    k0_pay1 x0 j = FloatOps.divf (F := Ideal) (φ := .f32) (∑ k : Fin 128, x0 (chanBlk j k)) (FloatOps.ofBits .f32 0x43000000#32) := by
  obtain ⟨p, q, rfl⟩ : ∃ (p : Fin 10000) (q : Fin 1), j = ix2 p q := ⟨j 0, j 1, eq_ix2 j⟩
  unfold k0_pay1
  show FloatOps.divf (F := Ideal) (φ := .f32) (shapeCast S10000x1 (multiReduction (F := Ideal) .add [1] S10000 x0 0x00000000#32 reduces_S10000x128_S10000 (.inl rfl) rfl) shapeCasts_S10000_S10000x1 (ix2 p q)) _ = _
  rw [shapeCast_a_a1_apply]
  refine (congrArg (FloatOps.divf (F := Ideal) (φ := .f32) · _)
    (Ideal.multiReduction_add_single (φ := .f32) x0 0x00000000#32 reduces_S10000x128_S10000 (.inl rfl) rfl (ix1 p))).trans ?_
  refine congrArg (FloatOps.divf (F := Ideal) (φ := .f32) · _) (Finset.sum_congr rfl fun k _ => congrArg x0 ?_)
  exact funext fun a => Fin.ext (by match a with | ⟨0, _⟩ => rfl | ⟨1, _⟩ => rfl)

/-- The second stored value at a position of the block: the lane maximum of that row from −∞, cast
    to a column. -/
theorem max_pay (x0 : Vec Ideal S10000x128 .f32) (j : S10000x1.Idx) :
    k0_pay2 x0 j = (Finset.univ : Finset (Fin 128)).fold max (FloatOps.ofBits (F := Ideal) .f32 0xFF800000#32) (fun k => x0 (chanBlk j k)) := by
  obtain ⟨p, q, rfl⟩ : ∃ (p : Fin 10000) (q : Fin 1), j = ix2 p q := ⟨j 0, j 1, eq_ix2 j⟩
  unfold k0_pay2
  show shapeCast S10000x1 (multiReduction (F := Ideal) .maximumf [1] S10000 x0 0xFF800000#32 reduces_S10000x128_S10000 (.inl rfl) rfl) shapeCasts_S10000_S10000x1 (ix2 p q) = _
  rw [shapeCast_a_a1_apply]
  refine (Ideal.multiReduction_maximumf_single (φ := .f32) x0 0xFF800000#32 reduces_S10000x128_S10000 (.inl rfl) rfl (ix1 p)).trans ?_
  refine congrArg (fun f => (Finset.univ : Finset (Fin 128)).fold max (FloatOps.ofBits (F := Ideal) .f32 0xFF800000#32) f) (funext fun k => congrArg x0 ?_)
  exact funext fun a => Fin.ext (by match a with | ⟨0, _⟩ => rfl | ⟨1, _⟩ => rfl)

/-- The three windows' block indices at a point, decided over the grid: block `t` of the rows, the
    one block of the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back to the first result is block `t` of `rowMean` of the features. -/
theorem flushed_mean (c : Dev nD) (t : Fin cfg0.N) :
    (dat0 V c).flushed 1 t = ((cfg0.win 1).blk t).view.read (Elt Ideal) (rowMean (V c main_arg0)) := by
  show (cfg0.win 1).cut (grid0.coords t) ((dat0 V c).after 1 t) = _
  rw [after0_1]
  unfold out0_1
  rw [View.canon_unit_zero hz]
  simp only [View.ld_unit_zero (S := S10000x128) hz]
  obtain ⟨e0, e1, e2, e3, e4, e5⟩ := idx_facts t
  funext j
  refine (mean_pay (iblk0 V c 0 t) j).trans ?_
  show FloatOps.divf (F := Ideal) (φ := .f32) (∑ k : Fin 128, V c main_arg0 (((cfg0.win 0).blk t).view.emb (chanBlk j k))) _
    = FloatOps.divf (F := Ideal) (φ := .f32) (∑ k : Fin 128, V c main_arg0 (chan (((cfg0.win 1).blk t).view.emb j) k)) _
  refine congrArg (FloatOps.divf (F := Ideal) (φ := .f32) · _) (Finset.sum_congr rfl fun k _ => congrArg (V c main_arg0) ?_)
  funext a; apply Fin.ext
  match a with
  | ⟨0, _⟩ => show win0_0.index t (0 : Fin 2) * 10000 + 1 * (j 0).val = win0_1.index t (0 : Fin 2) * 10000 + 1 * (j 0).val; omega
  | ⟨1, _⟩ => show win0_0.index t (1 : Fin 2) * 128 + 1 * k.val = k.val; omega

/-- What point `t` writes back to the second result is block `t` of `rowMax` of the features. -/
theorem flushed_max (c : Dev nD) (t : Fin cfg0.N) :
    (dat0 V c).flushed 2 t = ((cfg0.win 2).blk t).view.read (Elt Ideal) (rowMax (V c main_arg0)) := by
  show (cfg0.win 2).cut (grid0.coords t) ((dat0 V c).after 2 t) = _
  rw [after0_2]
  unfold out0_2
  rw [View.canon_unit_zero hz]
  simp only [View.ld_unit_zero (S := S10000x128) hz]
  obtain ⟨e0, e1, e2, e3, e4, e5⟩ := idx_facts t
  funext j
  refine (max_pay (iblk0 V c 0 t) j).trans ?_
  show (Finset.univ : Finset (Fin 128)).fold max (FloatOps.ofBits (F := Ideal) .f32 0xFF800000#32) (fun k => V c main_arg0 (((cfg0.win 0).blk t).view.emb (chanBlk j k)))
    = (Finset.univ : Finset (Fin 128)).fold max (FloatOps.ofBits (F := Ideal) .f32 0xFF800000#32) (fun k => V c main_arg0 (chan (((cfg0.win 2).blk t).view.emb j) k))
  refine congrArg (fun f => (Finset.univ : Finset (Fin 128)).fold max (FloatOps.ofBits (F := Ideal) .f32 0xFF800000#32) f) (funext fun k => congrArg (V c main_arg0) ?_)
  funext a; apply Fin.ext
  match a with
  | ⟨0, _⟩ => show win0_0.index t (0 : Fin 2) * 10000 + 1 * (j 0).val = win0_2.index t (0 : Fin 2) * 10000 + 1 * (j 0).val; omega
  | ⟨1, _⟩ => show win0_0.index t (1 : Fin 2) * 128 + 1 * k.val = k.val; omega

/-- An index of the first result is in point `t`'s block iff each coordinate is in the block's range. -/
theorem mem_blk1 (t : Fin cfg0.N) (i : S500000x1.Idx) :
    i ∈ ((cfg0.win 1).blk t).view.set ↔ ∀ a : Fin 2, win0_1.index t a * S10000x1.size a ≤ (i a).val ∧ (i a).val < win0_1.index t a * S10000x1.size a + S10000x1.size a := by
  show i ∈ ((View.whole main_v0_0).slice (win0_1.rect t)).set ↔ _
  rw [View.set_slice_whole, Rect.mem_set_unit]
  exact Iff.rfl

/-- The same for the second result. -/
theorem mem_blk2 (t : Fin cfg0.N) (i : S500000x1.Idx) :
    i ∈ ((cfg0.win 2).blk t).view.set ↔ ∀ a : Fin 2, win0_2.index t a * S10000x1.size a ≤ (i a).val ∧ (i a).val < win0_2.index t a * S10000x1.size a + S10000x1.size a := by
  show i ∈ ((View.whole main_v0_1).slice (win0_2.rect t)).set ↔ _
  rw [View.set_slice_whole, Rect.mem_set_unit]
  exact Iff.rfl

/-- The first result after the launch: the 50 row blocks tile it, row `n` lying in block `n / 10000`. -/
theorem final_mean (c : Dev nD) : (dat0 V c).arrAt 1 cfg0.N = rowMean (V c main_arg0) :=
  (dat0 V c).arrAt_eq_of_cover 1 (rowMean (V c main_arg0)) (fun t _ => flushed_mean V c t) fun i => by
    have hi0 : (i 0).val < 500000 := (i 0).isLt
    have hi1 : (i 1).val < 1 := (i 1).isLt
    obtain ⟨t, ht⟩ : ∃ t : Fin cfg0.N, t.val = (i 0).val / 10000 :=
      ⟨⟨(i 0).val / 10000, by show (i 0).val / 10000 < grid0.N; rw [N_0]; omega⟩, rfl⟩
    obtain ⟨e0, e1, e2, e3, e4, e5⟩ := idx_facts t
    refine ⟨t, flush0_1 t, ?_⟩
    rw [mem_blk1]
    intro a
    match a with
    | ⟨0, _⟩ => show win0_1.index t (0 : Fin 2) * 10000 ≤ (i 0).val ∧ (i 0).val < win0_1.index t (0 : Fin 2) * 10000 + 10000; omega
    | ⟨1, _⟩ => show win0_1.index t (1 : Fin 2) * 1 ≤ (i 1).val ∧ (i 1).val < win0_1.index t (1 : Fin 2) * 1 + 1; omega

/-- The second result after the launch, likewise. -/
theorem final_max (c : Dev nD) : (dat0 V c).arrAt 2 cfg0.N = rowMax (V c main_arg0) :=
  (dat0 V c).arrAt_eq_of_cover 2 (rowMax (V c main_arg0)) (fun t _ => flushed_max V c t) fun i => by
    have hi0 : (i 0).val < 500000 := (i 0).isLt
    have hi1 : (i 1).val < 1 := (i 1).isLt
    obtain ⟨t, ht⟩ : ∃ t : Fin cfg0.N, t.val = (i 0).val / 10000 :=
      ⟨⟨(i 0).val / 10000, by show (i 0).val / 10000 < grid0.N; rw [N_0]; omega⟩, rfl⟩
    obtain ⟨e0, e1, e2, e3, e4, e5⟩ := idx_facts t
    refine ⟨t, flush0_2 t, ?_⟩
    rw [mem_blk2]
    intro a
    match a with
    | ⟨0, _⟩ => show win0_2.index t (0 : Fin 2) * 10000 ≤ (i 0).val ∧ (i 0).val < win0_2.index t (0 : Fin 2) * 10000 + 10000; omega
    | ⟨1, _⟩ => show win0_2.index t (1 : Fin 2) * 1 ≤ (i 1).val ∧ (i 1).val < win0_2.index t (1 : Fin 2) * 1 + 1; omega

end Cert.KernelIdeal.Pool

end
-- ==== Proof.GateValue.lean ====
/-
  The second launch, read as a value. Its grid has 50 points; point `t` fetches rows
  10000·t … 10000·t + 9999 of the feature array and of the one-column gate array, and writes back
  the same rows of the result. Inside a block the body multiplies every entry of a feature row by
  the logistic of that row's gate entry (the column broadcast along the 128 channels). The 50
  blocks tile the result, so after the launch the result array is, entry by entry,
  `x[n, k] · logistic (g[n, 0])` of the arrays `x`, `g` the launch was entered with.
-/
import proofs.«113708_j83717502534258_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Gate

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The gate column's entry that scales position `i` of the feature array: same row, column 0. -/
abbrev rowEntry (i : S500000x128.Idx) : S500000x1.Idx := fun a => match a with
  | ⟨0, _⟩ => ⟨(i 0).val, (i 0).isLt⟩
  | ⟨1, _⟩ => ⟨0, Nat.one_pos⟩

/-- The same inside one block of 10000 rows. -/
abbrev rowEntryBlk (j : S10000x128.Idx) : S10000x1.Idx := fun a => match a with
  | ⟨0, _⟩ => ⟨(j 0).val, (j 0).isLt⟩
  | ⟨1, _⟩ => ⟨0, Nat.one_pos⟩

/-- Features scaled row by row by the logistic of the gate column. -/
def gated (x : S500000x128.Idx → Elt F .f32) (g : S500000x1.Idx → Elt F .f32) : S500000x128.Idx → Elt F .f32 :=
  fun i => FloatOps.mulf (x i) (FloatOps.logistic (g (rowEntry i)))

/-- The body's stored value at a position of the block: the feature entry times the logistic of
    its row's gate entry (the cast to the same shape is the identity, the broadcast reads column 0). -/
theorem pay_apply (g : Vec F S10000x1 .f32) (x : Vec F S10000x128 .f32) (j : S10000x128.Idx) :
    k1_pay1 g x j = FloatOps.mulf (x j) (FloatOps.logistic (g (rowEntryBlk j))) := by
  unfold k1_pay1
  show FloatOps.mulf (x j) (broadcastTo S10000x128 (logistic (shapeCast S10000x1 g shapeCasts_S10000x1_S10000x1)) broadcasts_S10000x1_S10000x128 j) = _
  rw [broadcastTo_apply _ broadcasts_S10000x1_S10000x128 j (rowEntryBlk j) (fun a => by
    match a with
    | ⟨0, _⟩ => show (j 0).val = if (10000 : Nat) = 1 then 0 else (j 0).val; rw [if_neg (by decide)]
    | ⟨1, _⟩ => show 0 = if (1 : Nat) = 1 then 0 else (j 1).val; rw [if_pos rfl])]
  rw [shapeCast_self]
  rfl

/-- The three windows' block indices at a point, decided over the grid: block `t` of the rows, the
    one block of the columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `gated` of the arrays the launch was entered with. -/
theorem flushed_eq (c : Dev nD) (t : Fin cfg1.N) :
    (dat1 V c).flushed 2 t = ((cfg1.win 2).blk t).view.read (Elt F) (gated (V c main_arg0) (V c main_v42)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := idx_facts t
  funext j
  refine (pay_apply (iblk1 V c 1 t) (iblk1 V c 0 t) j).trans ?_
  show FloatOps.mulf (V c main_arg0 (((cfg1.win 0).blk t).view.emb j)) (FloatOps.logistic (V c main_v42 (((cfg1.win 1).blk t).view.emb (rowEntryBlk j))))
    = FloatOps.mulf (V c main_arg0 (((cfg1.win 2).blk t).view.emb j)) (FloatOps.logistic (V c main_v42 (rowEntry (((cfg1.win 2).blk t).view.emb j))))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (rowEntryBlk j) = rowEntry (((cfg1.win 2).blk t).view.emb j) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An index of the result is in point `t`'s block iff each coordinate is in the block's range. -/
theorem mem_blk (t : Fin cfg1.N) (i : S500000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v43).slice (win1_2.rect t)).set ↔ _
  rw [View.set_slice_whole, Rect.mem_set_unit]
  exact Iff.rfl

/-- The result array after the launch: the 50 row blocks tile it, row `n` lying in block `n / 10000`. -/
theorem final (c : Dev nD) : (dat1 V c).arrAt 2 cfg1.N = gated (V c main_arg0) (V c main_v42) :=
  (dat1 V c).arrAt_eq_of_cover 2 (gated (V c main_arg0) (V c main_v42)) (fun t _ => flushed_eq V c t) fun i => by
    have hi0 : (i 0).val < 500000 := (i 0).isLt
    have hi1 : (i 1).val < 128 := (i 1).isLt
    obtain ⟨t, ht⟩ : ∃ t : Fin cfg1.N, t.val = (i 0).val / 10000 :=
      ⟨⟨(i 0).val / 10000, by show (i 0).val / 10000 < grid1.N; rw [N_1]; omega⟩, rfl⟩
    obtain ⟨e0, e1, e2, e3, e4, e5⟩ := idx_facts t
    refine ⟨t, flush1_2 t, ?_⟩
    rw [mem_blk]
    intro a
    match a with
    | ⟨0, _⟩ => show win1_2.index t (0 : Fin 2) * 10000 ≤ (i 0).val ∧ (i 0).val < win1_2.index t (0 : Fin 2) * 10000 + 10000; omega
    | ⟨1, _⟩ => show win1_2.index t (1 : Fin 2) * 128 ≤ (i 1).val ∧ (i 1).val < win1_2.index t (1 : Fin 2) * 128 + 128; omega

end Cert.KernelIdeal.Gate

end
-- ==== Proof.KernelValue.lean ====
/-
  The kernel program's result as one function of its five arguments, at the extended reals:
  the first launch leaves each row's mean and maximum (two one-column arrays); the host operations
  between the launches turn them, with the weight and the three index lists, into the gate column
  (per-pair contributions added per output row); the second launch scales each feature row by the
  logistic of its gate entry.
-/
import proofs.«113708_j83717502534258_1_alg».proof.Proof.Gen.KernelIdeal.Frame
import proofs.«113708_j83717502534258_1_alg».proof.Proof.KernelRun
import proofs.«113708_j83717502534258_1_alg».proof.Proof.KernelHost
import proofs.«113708_j83717502534258_1_alg».proof.Proof.PoolValue
import proofs.«113708_j83717502534258_1_alg».proof.Proof.GateValue
import Idealize.ShloMosaic.Lib.StableHlo.Run

set_option maxRecDepth 16384

noncomputable section

namespace Cert.KernelIdeal.Whole

open Cert.KernelIdeal Cert.KernelIdeal.Gen Cert.KernelIdeal.Glue
open Idealize.ShloMosaic Idealize.ShloMosaic.TcCoe Idealize.SL.Sem Idealize.ShloMosaic.StableHlo

/-! ## The host operations between the launches, at any float values -/

section Between

variable {F : FTy → Type} [FloatOps F]
variable (m : (ℓ : Loc nD τ sig) → Buf (Elt F) ℓ) (ρ : Dev nD → PrngReg)

set_option maxHeartbeats 2000000 in
/-- The gate column the second launch is entered with: the host operations' composed term of what
    the first launch left and of the arguments. -/
theorem entry_gate (c : Dev nD) :
    V2 m ρ c main_v42
      = vecCol (segSum (pairSum (colVec (W1 m ρ c (Proc.devRef .tc main_v0_0))) (colVec (W1 m ρ c (Proc.devRef .tc main_v0_1)))
          (weight0 (W1 m ρ c (Proc.devRef .tc main_arg1))) (weight1 (W1 m ρ c (Proc.devRef .tc main_arg1)))
          (W1 m ρ c (Proc.devRef .tc main_arg2)) (W1 m ρ c (Proc.devRef .tc main_arg3))) (W1 m ρ c (Proc.devRef .tc main_arg4))) := by
  dsimp only [V2, W2]
  after_results_simp
  rfl

set_option maxHeartbeats 2000000 in
/-- No host operation writes the features: the second launch is entered with them as the first left them. -/
theorem entry_features (c : Dev nD) : V2 m ρ c main_arg0 = W1 m ρ c (Proc.devRef .tc main_arg0) := by
  dsimp only [V2, W2]
  after_results_simp

/-- The first launch reads the features and leaves them as launched. -/
theorem W1_features (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The other arguments are no array of the first launch. -/
theorem W1_weight (c : Dev nD) : W1 m ρ c (Proc.devRef .tc main_arg1) = m ((c : Thread nD τ).loc main_arg1) :=
  W1_of_ne m ρ c main_arg1 (by decide)
theorem W1_kidx (c : Dev nD) : W1 m ρ c (Proc.devRef .tc main_arg2) = m ((c : Thread nD τ).loc main_arg2) :=
  W1_of_ne m ρ c main_arg2 (by decide)
theorem W1_inidx (c : Dev nD) : W1 m ρ c (Proc.devRef .tc main_arg3) = m ((c : Thread nD τ).loc main_arg3) :=
  W1_of_ne m ρ c main_arg3 (by decide)
theorem W1_outidx (c : Dev nD) : W1 m ρ c (Proc.devRef .tc main_arg4) = m ((c : Thread nD τ).loc main_arg4) :=
  W1_of_ne m ρ c main_arg4 (by decide)

end Between

/-! ## The whole program at the extended reals -/

variable (m : (ℓ : Loc nD τ sig) → Buf (Elt Ideal) ℓ) (ρ : Dev nD → PrngReg)

/-- The gate column as a function of the arguments. -/
def gateCol (x : (⟨S500000x128, .f32⟩ : BufTy).Contents (Elt Ideal)) (w : (⟨S27x2x1, .f32⟩ : BufTy).Contents (Elt Ideal))
    (kidx inidx outidx : (⟨S13500000, .i32⟩ : BufTy).Contents (Elt Ideal)) : (⟨S500000x1, .f32⟩ : BufTy).Contents (Elt Ideal) :=
  vecCol (segSum (pairSum (colVec (Pool.rowMean x)) (colVec (Pool.rowMax x)) (weight0 w) (weight1 w) kidx inidx) outidx)

/-- The result as a function of the arguments. -/
def result (x : (⟨S500000x128, .f32⟩ : BufTy).Contents (Elt Ideal)) (w : (⟨S27x2x1, .f32⟩ : BufTy).Contents (Elt Ideal))
    (kidx inidx outidx : (⟨S13500000, .i32⟩ : BufTy).Contents (Elt Ideal)) : (⟨S500000x128, .f32⟩ : BufTy).Contents (Elt Ideal) :=
  Gate.gated x (gateCol x w kidx inidx outidx)

/-- What the first launch leaves in its two results. -/
theorem W1_mean (c : Dev nD) : W1 m ρ c (Proc.devRef .tc main_v0_0) = Pool.rowMean (m ((c : Thread nD τ).loc main_arg0)) :=
  (W1_arr m ρ c 1).trans (Pool.final_mean (V0 m ρ) c)
theorem W1_max (c : Dev nD) : W1 m ρ c (Proc.devRef .tc main_v0_1) = Pool.rowMax (m ((c : Thread nD τ).loc main_arg0)) :=
  (W1_arr m ρ c 2).trans (Pool.final_max (V0 m ρ) c)

/-- The result buffer at the end of @main is `result` of the launch contents of the arguments. -/
theorem W3_result (c : Dev nD) :
    W3 m ρ c (Proc.devRef .tc main_v43)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (W3_arr m ρ c 2).trans ((Gate.final (V2 m ρ) c).trans ?_)
  rw [entry_features m ρ c, W1_features m ρ c, entry_gate m ρ c, W1_mean m ρ c, W1_max m ρ c, W1_weight m ρ c, W1_kidx m ρ c,
    W1_inidx m ρ c, W1_outidx m ρ c]
  rfl

/-- The run, read: every weakly fair execution of @main ends with the result array at `result` of the arguments and
    the arguments as launched. -/
theorem run : θ_run defs (onTc (τ := τ) (main (F := Ideal))) ⟨m, fun _ => 0, ρ⟩ (fun r => ∀ c : Dev nD,
      r.2.mem ((c.tc : Thread nD τ).loc main_v43)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W3_result m ρ c), (h c).2⟩) (GenRun.run_result m ρ)

end Cert.KernelIdeal.Whole

end
-- ==== Proof.LibGatherAt.lean ====
/-
  A StableHLO gather read at one result index, for five shapes of dimension numbers that have no
  batching axes and the index vector on the start indices' last axis:

  * rows of a matrix chosen by one column of indices (`gather_rows_apply`);
  * rows of a rank-3 array chosen by a pair of indices (`gather_pair_rows_apply`);
  * single entries of a matrix chosen by a pair of indices (`gather_pair_scalar_apply`);
  * single entries of a flat array chosen by one column of indices (`gather_column_apply`);
  * middle-axis fibres of a rank-3 array chosen by a pair of indices for its outer axes
    (`gather_outer_pair_apply`).

  In each the dimension-number record is a variable and its printed fields are hypotheses, so the
  lemmas hold at every size: on an operand axis named by the start index map the coordinate read is
  the start index's component, taken as a signed integer and clamped so that the slice fits; on an
  axis that is not collapsed it is the result's offset coordinate.
-/
import Idealize.ShloMosaic.PureOps.ShapeOps
import Idealize.ShloMosaic.PureOps.Dims
import Idealize.ShloMosaic.Lib.ValueIdx

namespace Cert.LibIndexing

open Idealize.ShloMosaic Idealize.ShloMosaic.ValueIdx

variable {α : Type} {N R H E w : Nat}

/-- An entry of a one-element list is that element, whatever the position is written as. -/
private theorem getElem_of_eq_singleton {β : Type} {l : List β} {b : β} (hl : l = [b]) (i : Nat)
    (hi : i < l.length) : l[i] = b := by
  subst hl
  have hi0 : i = 0 := by simpa using hi
  subst hi0
  rfl

/-- A multi-index read on two equal axes gives the same number. -/
private theorem idx_val_congr {s : Shape} (j : s.Idx) {a b : Fin s.rank} (hab : a = b) :
    (j a).val = (j b).val := by
  subst hab; rfl

/-- The start-indices position a result index reads, for a two-axis table of start indices whose
    second axis is the index vector's: the row is the result's batch coordinate, the column the
    component's number. -/
private theorem siIdx_eq {s t : Shape} {K : Nat} (d : GatherDims s ⟨2, ![E, K]⟩ t)
    (hivd : d.indexVectorDim = 1) (j : t.Idx) (c : Fin d.startIndexMap.length) (e : Fin E) (k : Fin K)
    (he : ∀ (i : Nat) (hi : i < d.batchDims.length), (j d.batchDims[i]).val = e.val)
    (hk : c.val = k.val) : d.siIdx j c = ix2 e k := by
  funext b
  match b with
  | ⟨0, _⟩ =>
    unfold GatherDims.siIdx
    rw [dif_neg (by rw [hivd]; simp)]
    unfold GatherDims.siCoord
    apply Fin.ext
    simp only [Fin.val_cast]
    exact he _ _
  | ⟨1, _⟩ =>
    unfold GatherDims.siIdx
    rw [dif_pos (by rw [hivd])]
    apply Fin.ext
    exact hk

/-- The two axes of a rank-2 shape. -/
private theorem fin2_cases (a : Fin 2) : a = 0 ∨ a = 1 := by
  rcases a with ⟨v, hv⟩
  rcases v with _ | _ | v
  · exact Or.inl rfl
  · exact Or.inr rfl
  · omega

/-- The three axes of a rank-3 shape. -/
private theorem fin3_cases (a : Fin 3) : a = 0 ∨ a = 1 ∨ a = 2 := by
  rcases a with ⟨v, hv⟩
  rcases v with _ | _ | _ | v
  · exact Or.inl rfl
  · exact Or.inr (Or.inl rfl)
  · exact Or.inr (Or.inr rfl)
  · omega

/-- ONE COLLAPSED, START-INDEXED AXIS. With no batching axes and a two-axis table of start indices
    (index vector on axis 1), the operand coordinate read on an axis `a` that is collapsed and is
    component `k` of the start index map is the table's entry (e, k), read as a signed integer and
    clamped into [0, size − 1]: there is no batching and no offset coordinate there, and the slice
    size is 1. -/
private theorem operandIdx_collapsed {s t : Shape} {K : Nat} (d : GatherDims s ⟨2, ![E, K]⟩ t)
    (hivd : d.indexVectorDim = 1) (hob : d.operandBatchingDims = []) (j : t.Idx)
    (idx : IVec ⟨2, ![E, K]⟩ w) (e : Fin E)
    (he : ∀ (i : Nat) (hi : i < d.batchDims.length), (j d.batchDims[i]).val = e.val)
    (a : Fin s.rank) (k : Fin K) (hc : a ∈ d.collapsedSliceDims) (hm : a ∈ d.startIndexMap)
    (hk : d.startIndexMap.idxOf a = k.val) (hs : d.sliceSizes a = 1) :
    (d.operandIdx j idx a).val = min (idx (ix2 e k)).toInt.toNat (s.size a - 1) := by
  have hb : a ∉ d.operandBatchingDims := by rw [hob]; exact List.not_mem_nil
  have hnk : a ∉ d.sKept := fun hmem => ((d.mem_sKept a).1 hmem).1 hc
  have hsi : d.siIdx j ⟨d.startIndexMap.idxOf a, List.idxOf_lt_length_iff.2 hm⟩ = ix2 e k :=
    siIdx_eq d hivd _ _ e k he hk
  show d.start j idx a + d.batchCoord j a + d.offCoord j a = _
  rw [GatherDims.batchCoord_eq_zero _ _ _ hb, GatherDims.offCoord_eq_zero _ _ _ hnk, Nat.add_zero]
  unfold GatherDims.start
  rw [dif_pos hm, hsi, hs]

/-- THE OFFSET AXIS. With no batching axes and one offset axis `o` of the result, the operand
    coordinate read on an axis `a` that is kept (neither collapsed nor batching) and is not named
    by the start index map is the result's coordinate on `o`: the slice starts at 0 there. -/
private theorem operandIdx_offset {s si t : Shape} (d : GatherDims s si t) (hob : d.operandBatchingDims = [])
    (j : t.Idx) (idx : IVec si w) (a : Fin s.rank) (o : Fin t.rank) (hoff : d.offsetDims = [o])
    (hk : a ∈ d.sKept) (hm : a ∉ d.startIndexMap) : (d.operandIdx j idx a).val = (j o).val := by
  have hb : a ∉ d.operandBatchingDims := by rw [hob]; exact List.not_mem_nil
  show d.start j idx a + d.batchCoord j a + d.offCoord j a = _
  rw [GatherDims.batchCoord_eq_zero _ _ _ hb, Nat.add_zero]
  unfold GatherDims.start GatherDims.offCoord
  rw [dif_neg hm, dif_pos hk, Nat.zero_add]
  exact idx_val_congr j (getElem_of_eq_singleton hoff _ _)

/-- ROWS OF A MATRIX BY ONE INDEX COLUMN. The gather whose start indices are an [E × 1] column,
    whose operand axis 0 is collapsed and start-indexed and whose operand axis 1 is the result's
    offset axis reads, at result position (e, h), the matrix at row `idx[e, 0]` — read as a signed
    integer and clamped into [0, N − 1] — and column `h`. -/
theorem gather_rows_apply (d : GatherDims ⟨2, ![N, H]⟩ ⟨2, ![E, 1]⟩ ⟨2, ![E, H]⟩)
    (hoff : d.offsetDims = [1]) (hcoll : d.collapsedSliceDims = [0]) (hob : d.operandBatchingDims = [])
    (hsim : d.startIndexMap = [0]) (hivd : d.indexVectorDim = 1) (hsl : d.sliceSizes = ![1, H])
    (x : (⟨2, ![N, H]⟩ : Shape).Idx → α) (idx : IVec ⟨2, ![E, 1]⟩ w) (e : Fin E) (h : Fin H) (hN : 0 < N) :
    Host.gather d x idx (ix2 e h) = x (ix2 ⟨min (idx (ix2 e (0 : Fin 1))).toInt.toNat (N - 1), by omega⟩ h) := by
  unfold Host.gather
  congr 1
  -- the result's one batch axis is axis 0: the axes of [E × H] outside the offset axes [1]
  have hbd : d.batchDims = [0] := by
    show Shape.kept _ d.offsetDims = [0]
    rw [hoff]; rfl
  have he : ∀ (i : Nat) (hi : i < d.batchDims.length), ((ix2 e h : (⟨2, ![E, H]⟩ : Shape).Idx) d.batchDims[i]).val = e.val :=
    fun i hi => idx_val_congr (ix2 e h) (getElem_of_eq_singleton hbd i hi)
  funext a
  apply Fin.ext
  rcases fin2_cases a with rfl | rfl
  · -- the row axis: collapsed, component 0 of the start index
    exact operandIdx_collapsed d hivd hob _ idx e he 0 (0 : Fin 1) (by rw [hcoll]; simp) (by rw [hsim]; simp)
      (by rw [hsim]; rfl) (by rw [hsl]; rfl)
  · -- the column axis: kept and not start-indexed, read at the result's offset coordinate
    exact operandIdx_offset d hob _ idx 1 1 hoff (by rw [GatherDims.mem_sKept, hcoll, hob]; simp) (by rw [hsim]; simp)

/-- ROWS OF A RANK-3 ARRAY BY A PAIR OF INDICES. The gather whose start indices are an [E × 2]
    table, whose operand axes 0 and 1 are collapsed and named, in that order, by the start index
    map, and whose operand axis 2 is the result's offset axis reads, at result position (e, h), the
    array at (`idx[e, 0]`, `idx[e, 1]`, h), each index read as a signed integer and clamped into its
    axis: [0, N − 1] and [0, R − 1]. -/
theorem gather_pair_rows_apply (d : GatherDims ⟨3, ![N, R, H]⟩ ⟨2, ![E, 2]⟩ ⟨2, ![E, H]⟩)
    (hoff : d.offsetDims = [1]) (hcoll : d.collapsedSliceDims = [0, 1]) (hob : d.operandBatchingDims = [])
    (hsim : d.startIndexMap = [0, 1]) (hivd : d.indexVectorDim = 1) (hsl : d.sliceSizes = ![1, 1, H])
    (x : (⟨3, ![N, R, H]⟩ : Shape).Idx → α) (idx : IVec ⟨2, ![E, 2]⟩ w) (e : Fin E) (h : Fin H) (hN : 0 < N) (hR : 0 < R) :
    Host.gather d x idx (ix2 e h)
      = x (ix3 ⟨min (idx (ix2 e (0 : Fin 2))).toInt.toNat (N - 1), by omega⟩ ⟨min (idx (ix2 e (1 : Fin 2))).toInt.toNat (R - 1), by omega⟩ h) := by
  unfold Host.gather
  congr 1
  -- the result's one batch axis is axis 0: the axes of [E × H] outside the offset axes [1]
  have hbd : d.batchDims = [0] := by
    show Shape.kept _ d.offsetDims = [0]
    rw [hoff]; rfl
  have he : ∀ (i : Nat) (hi : i < d.batchDims.length), ((ix2 e h : (⟨2, ![E, H]⟩ : Shape).Idx) d.batchDims[i]).val = e.val :=
    fun i hi => idx_val_congr (ix2 e h) (getElem_of_eq_singleton hbd i hi)
  funext a
  apply Fin.ext
  rcases fin3_cases a with rfl | rfl | rfl
  · -- the first axis: collapsed, component 0 of the start index
    exact operandIdx_collapsed d hivd hob _ idx e he 0 (0 : Fin 2) (by rw [hcoll]; simp) (by rw [hsim]; simp)
      (by rw [hsim]; rfl) (by rw [hsl]; rfl)
  · -- the second axis: collapsed, component 1 of the start index
    exact operandIdx_collapsed d hivd hob _ idx e he 1 (1 : Fin 2) (by rw [hcoll]; simp) (by rw [hsim]; simp)
      (by rw [hsim]; rfl) (by rw [hsl]; rfl)
  · -- the last axis: kept and not start-indexed, read at the result's offset coordinate
    exact operandIdx_offset d hob _ idx 2 1 hoff (by rw [GatherDims.mem_sKept, hcoll, hob]; simp) (by rw [hsim]; simp)

/-- ONE ENTRY OF A MATRIX BY A PAIR OF INDICES. The gather whose start indices are an [E × 2]
    table, whose two operand axes are both collapsed and named, in order, by the start index map,
    and whose result has no offset axis reads, at result position e, the matrix at
    (`idx[e, 0]`, `idx[e, 1]`), each index read as a signed integer and clamped into its axis:
    [0, N − 1] and [0, R − 1]. -/
theorem gather_pair_scalar_apply (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1) (hsl : d.sliceSizes = ![1, 1])
    (x : (⟨2, ![N, R]⟩ : Shape).Idx → α) (idx : IVec ⟨2, ![E, 2]⟩ w) (e : Fin E) (hN : 0 < N) (hR : 0 < R) :
    Host.gather d x idx (ix1 e)
      = x (ix2 ⟨min (idx (ix2 e (0 : Fin 2))).toInt.toNat (N - 1), by omega⟩ ⟨min (idx (ix2 e (1 : Fin 2))).toInt.toNat (R - 1), by omega⟩) := by
  unfold Host.gather
  congr 1
  -- the result's one axis is its batch axis: there are no offset axes
  have hbd : d.batchDims = [0] := by
    show Shape.kept _ d.offsetDims = [0]
    rw [hoff]; rfl
  have he : ∀ (i : Nat) (hi : i < d.batchDims.length), ((ix1 e : (⟨1, ![E]⟩ : Shape).Idx) d.batchDims[i]).val = e.val :=
    fun i hi => idx_val_congr (ix1 e) (getElem_of_eq_singleton hbd i hi)
  funext a
  apply Fin.ext
  rcases fin2_cases a with rfl | rfl
  · -- the first axis: collapsed, component 0 of the start index
    exact operandIdx_collapsed d hivd hob _ idx e he 0 (0 : Fin 2) (by rw [hcoll]; simp) (by rw [hsim]; simp)
      (by rw [hsim]; rfl) (by rw [hsl]; rfl)
  · -- the second axis: collapsed, component 1 of the start index
    exact operandIdx_collapsed d hivd hob _ idx e he 1 (1 : Fin 2) (by rw [hcoll]; simp) (by rw [hsim]; simp)
      (by rw [hsim]; rfl) (by rw [hsl]; rfl)

/-- The one axis of a rank-1 shape. -/
private theorem fin1_cases (a : Fin 1) : a = 0 := Subsingleton.elim _ _

/-- ONE ENTRY OF A FLAT ARRAY BY ONE INDEX COLUMN. The gather whose start indices are an [E × 1]
    column, whose operand's one axis is collapsed and start-indexed and whose result has no offset
    axis reads, at result position e, the array at `idx[e, 0]`, read as a signed integer and clamped
    into [0, N − 1]. -/
theorem gather_column_apply (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1) (hsl : d.sliceSizes = ![1])
    (x : (⟨1, ![N]⟩ : Shape).Idx → α) (idx : IVec ⟨2, ![E, 1]⟩ w) (e : Fin E) (hN : 0 < N) :
    Host.gather d x idx (ix1 e) = x (ix1 ⟨min (idx (ix2 e (0 : Fin 1))).toInt.toNat (N - 1), by omega⟩) := by
  unfold Host.gather
  congr 1
  -- the result's one axis is its batch axis: there are no offset axes
  have hbd : d.batchDims = [0] := by
    show Shape.kept _ d.offsetDims = [0]
    rw [hoff]; rfl
  have he : ∀ (i : Nat) (hi : i < d.batchDims.length), ((ix1 e : (⟨1, ![E]⟩ : Shape).Idx) d.batchDims[i]).val = e.val :=
    fun i hi => idx_val_congr (ix1 e) (getElem_of_eq_singleton hbd i hi)
  funext a
  apply Fin.ext
  obtain rfl := fin1_cases a
  -- the only axis: collapsed, component 0 of the start index
  exact operandIdx_collapsed d hivd hob _ idx e he 0 (0 : Fin 1) (by rw [hcoll]; simp) (by rw [hsim]; simp)
    (by rw [hsim]; rfl) (by rw [hsl]; rfl)

/-- MIDDLE-AXIS FIBRES OF A RANK-3 ARRAY BY A PAIR OF INDICES. The gather whose start indices are
    an [E × 2] table, whose operand axes 0 and 2 are collapsed and named, in that order, by the
    start index map, and whose operand axis 1 is the result's offset axis reads, at result position
    (e, h), the array at (`idx[e, 0]`, h, `idx[e, 1]`), each index read as a signed integer and
    clamped into its axis: [0, N − 1] and [0, R − 1]. -/
theorem gather_outer_pair_apply (d : GatherDims ⟨3, ![N, H, R]⟩ ⟨2, ![E, 2]⟩ ⟨2, ![E, H]⟩)
    (hoff : d.offsetDims = [1]) (hcoll : d.collapsedSliceDims = [0, 2]) (hob : d.operandBatchingDims = [])
    (hsim : d.startIndexMap = [0, 2]) (hivd : d.indexVectorDim = 1) (hsl : d.sliceSizes = ![1, H, 1])
    (x : (⟨3, ![N, H, R]⟩ : Shape).Idx → α) (idx : IVec ⟨2, ![E, 2]⟩ w) (e : Fin E) (h : Fin H) (hN : 0 < N) (hR : 0 < R) :
    Host.gather d x idx (ix2 e h)
      = x (ix3 ⟨min (idx (ix2 e (0 : Fin 2))).toInt.toNat (N - 1), by omega⟩ h ⟨min (idx (ix2 e (1 : Fin 2))).toInt.toNat (R - 1), by omega⟩) := by
  unfold Host.gather
  congr 1
  -- the result's one batch axis is axis 0: the axes of [E × H] outside the offset axes [1]
  have hbd : d.batchDims = [0] := by
    show Shape.kept _ d.offsetDims = [0]
    rw [hoff]; rfl
  have he : ∀ (i : Nat) (hi : i < d.batchDims.length), ((ix2 e h : (⟨2, ![E, H]⟩ : Shape).Idx) d.batchDims[i]).val = e.val :=
    fun i hi => idx_val_congr (ix2 e h) (getElem_of_eq_singleton hbd i hi)
  funext a
  apply Fin.ext
  rcases fin3_cases a with rfl | rfl | rfl
  · -- the first axis: collapsed, component 0 of the start index
    exact operandIdx_collapsed d hivd hob _ idx e he 0 (0 : Fin 2) (by rw [hcoll]; simp) (by rw [hsim]; simp)
      (by rw [hsim]; rfl) (by rw [hsl]; rfl)
  · -- the middle axis: kept and not start-indexed, read at the result's offset coordinate
    exact operandIdx_offset d hob _ idx 1 1 hoff (by rw [GatherDims.mem_sKept, hcoll, hob]; simp) (by rw [hsim]; simp)
  · -- the last axis: collapsed, component 1 of the start index
    exact operandIdx_collapsed d hivd hob _ idx e he 2 (1 : Fin 2) (by rw [hcoll]; simp) (by rw [hsim]; simp)
      (by rw [hsim]; rfl) (by rw [hsl]; rfl)

end Cert.LibIndexing
-- ==== Proof.PairsKernel.lean ====
/-
  One pair's contribution on the kernel's side, read at the pair's number `p`: the flat gathers
  read the mean and the maximum at the input row `rowOf p` and the two weight columns at the
  kernel offset `offOf p` — each index wrapped once if negative, then clamped into its axis —,
  so the contribution is `a[row] · w[off, 0, 0] + m[row] · w[off, 1, 0]`.
-/
import proofs.«113708_j83717502534258_1_alg».proof.Proof.KernelHost
import proofs.«113708_j83717502534258_1_alg».proof.Proof.LibGatherAt
import proofs.«113708_j83717502534258_1_alg».proof.Proof.LibColumnCast
import Idealize.ShloMosaic.Lib.Pipeline.Value
import Idealize.ShloMosaic.Lib.ValueIdx

noncomputable section

namespace Cert.KernelIdeal.Glue

open Cert.KernelIdeal Idealize.ShloMosaic Idealize.ShloMosaic.ValueIdx Cert.LibIndexing Cert.LibColumnCast
open Facts₀ Facts

variable {F : FTy → Type} [FloatOps F] [Facts]

/-- The row a one-column index table names at entry `p`, clamped into an axis of length `n`. -/
def clampAt (n : Nat) (hn : 0 < n) (tbl : IVec S13500000x1 32) (p : Fin 13500000) : Fin n :=
  ⟨min (tbl (ix2 p (0 : Fin 1))).toInt.toNat (n - 1), by omega⟩

/-- A flat gather of a 500000-vector by a one-column table reads the clamped entry. -/
theorem gather_row (a : (⟨S500000, .f32⟩ : BufTy).Contents (Elt F)) (tbl : (⟨S13500000x1, .i32⟩ : BufTy).Contents (Elt F)) (p : Fin 13500000) :
    Host.gather gather_S500000_S13500000x1_S13500000_n_0_n_n_0_1_1 a tbl (ix1 p) = a (ix1 (clampAt 500000 (by decide) tbl p)) :=
  gather_column_apply (N := 500000) (E := 13500000) gather_S500000_S13500000x1_S13500000_n_0_n_n_0_1_1 rfl rfl rfl rfl rfl rfl a tbl p (by decide)

/-- A flat gather of a 27-vector by a one-column table reads the clamped entry. -/
theorem gather_off (a : (⟨S27, .f32⟩ : BufTy).Contents (Elt F)) (tbl : (⟨S13500000x1, .i32⟩ : BufTy).Contents (Elt F)) (p : Fin 13500000) :
    Host.gather gather_S27_S13500000x1_S13500000_n_0_n_n_0_1_1 a tbl (ix1 p) = a (ix1 (clampAt 27 (by decide) tbl p)) :=
  gather_column_apply (N := 27) (E := 13500000) gather_S27_S13500000x1_S13500000_n_0_n_n_0_1_1 rfl rfl rfl rfl rfl rfl a tbl p (by decide)

/-- Column 0 of the weight at offset `k` is `w[k, 0, 0]`. -/
theorem weight0_apply (w : (⟨S27x2x1, .f32⟩ : BufTy).Contents (Elt F)) (k : Fin 27) :
    weight0 w (ix1 k) = w (ix3 k (0 : Fin 2) (0 : Fin 1)) := by
  show shapeCast S27 (extractStridedSlice S27x1x1 ![0, 0, 0] w slices_S27x2x1_S27x1x1_0_0_0) shapeCasts_S27x1x1_S27 (ix1 k) = _
  rw [shapeCast_a11_a_apply]
  exact extractStridedSlice_apply _ w _ _ _ (fun a => by
    match a with
    | ⟨0, _⟩ => show k.val = 0 + k.val; omega
    | ⟨1, _⟩ => show 0 = 0 + 0; rfl
    | ⟨2, _⟩ => show 0 = 0 + 0; rfl)

/-- Column 1 of the weight at offset `k` is `w[k, 1, 0]`. -/
theorem weight1_apply (w : (⟨S27x2x1, .f32⟩ : BufTy).Contents (Elt F)) (k : Fin 27) :
    weight1 w (ix1 k) = w (ix3 k (1 : Fin 2) (0 : Fin 1)) := by
  show shapeCast S27 (extractStridedSlice S27x1x1 ![0, 1, 0] w slices_S27x2x1_S27x1x1_0_1_0) shapeCasts_S27x1x1_S27 (ix1 k) = _
  rw [shapeCast_a11_a_apply]
  exact extractStridedSlice_apply _ w _ _ _ (fun a => by
    match a with
    | ⟨0, _⟩ => show k.val = 0 + k.val; omega
    | ⟨1, _⟩ => show 1 = 1 + 0; rfl
    | ⟨2, _⟩ => show 0 = 0 + 0; rfl)

/-- One pair's contribution: mean and maximum of its input row against the two weight columns at
    its kernel offset. -/
theorem pairSum_apply (a mx : (⟨S500000, .f32⟩ : BufTy).Contents (Elt F)) (w : (⟨S27x2x1, .f32⟩ : BufTy).Contents (Elt F))
    (kidx inidx : (⟨S13500000, .i32⟩ : BufTy).Contents (Elt F)) (p : Fin 13500000) :
    pairSum a mx (weight0 w) (weight1 w) kidx inidx (ix1 p)
      = FloatOps.addf
          (FloatOps.mulf (a (ix1 (clampAt 500000 (by decide) (asColumn (wrap 500000#32 inidx)) p)))
            (w (ix3 (clampAt 27 (by decide) (asColumn (wrap 27#32 kidx)) p) (0 : Fin 2) (0 : Fin 1))))
          (FloatOps.mulf (mx (ix1 (clampAt 500000 (by decide) (asColumn (wrap 500000#32 inidx)) p)))
            (w (ix3 (clampAt 27 (by decide) (asColumn (wrap 27#32 kidx)) p) (1 : Fin 2) (0 : Fin 1)))) := by
  show FloatOps.addf
      (FloatOps.mulf (Host.gather gather_S500000_S13500000x1_S13500000_n_0_n_n_0_1_1 a (asColumn (wrap 500000#32 inidx)) (ix1 p))
        (Host.gather gather_S27_S13500000x1_S13500000_n_0_n_n_0_1_1 (weight0 w) (asColumn (wrap 27#32 kidx)) (ix1 p)))
      (FloatOps.mulf (Host.gather gather_S500000_S13500000x1_S13500000_n_0_n_n_0_1_1 mx (asColumn (wrap 500000#32 inidx)) (ix1 p))
        (Host.gather gather_S27_S13500000x1_S13500000_n_0_n_n_0_1_1 (weight1 w) (asColumn (wrap 27#32 kidx)) (ix1 p))) = _
  rw [gather_row, gather_row, gather_off, gather_off, weight0_apply, weight1_apply]

end Cert.KernelIdeal.Glue

end
-- ==== Proof.Bridge.lean ====
/-
  The two programs compute one function of the arguments, at the extended reals.

  * The reference's per-row mean and maximum are the first launch's: a row's sum from 0 divided by
    128, and the fold of `max` over a row from −∞ (`mean_eq`, `max_eq`).
  * Per pair `p` the reference gathers row `in_idx[p]` of the stacked [mean, max] matrix and the
    fibre `w[kidx[p], ·, 0]` and adds the two products from 0; the kernel's program gathers the
    mean, the maximum and the two weight columns separately and adds the two products. Both read
    the same clamped row and offset, and `0 + (u + v) = u + v` (`pair_eq`).
  * The per-row sums of the contributions are then one term (the same scatter-add, the same
    slice), and `tpu.logistic` is `1 / (1 + exp (−s))` at the extended reals, which is how the
    reference spells the gate (`result_eq`).
-/
import proofs.«113708_j83717502534258_1_alg».proof.Proof.RefRead
import proofs.«113708_j83717502534258_1_alg».proof.Proof.KernelValue
import proofs.«113708_j83717502534258_1_alg».proof.Proof.PairsKernel
import Idealize.ShloMosaic.Lib.IdealHost
import Idealize.ShloMosaic.PureOps.Ideal.Laws
import Idealize.ShloMosaic.Lib.Pipeline.Value
import Idealize.ShloMosaic.Lib.ValueIdx

set_option maxRecDepth 16384

noncomputable section

namespace Cert.Bridge

open Cert.KernelIdeal Cert.KernelIdeal.Glue Cert.KernelIdeal.Whole Cert.ReferenceIdeal.ReadP
open Idealize.ShloMosaic Idealize.ShloMosaic.ValueIdx Cert.LibIndexing Cert.LibColumnCast
open Cert.KernelIdeal.Facts₀

/-! ## The per-row mean and maximum -/

/-- The first launch's mean column, flattened, is the reference's `sum / 128`. -/
theorem mean_eq (x : (⟨S500000x128, .f32⟩ : BufTy).Contents (Elt Ideal)) :
    colVec (Pool.rowMean x) = val_main_v2 (F := Ideal) x := by
  funext i
  obtain ⟨n, rfl⟩ : ∃ n : Fin 500000, i = ix1 n := ⟨i 0, eq_ix1 i⟩
  show shapeCast S500000 (Pool.rowMean x) shapeCasts_S500000x1_S500000 (ix1 n) = _
  rw [shapeCast_a1_a_apply, val_main_v2_apply, val_main_v0_apply, val_main_v1_apply, val_main_cst_apply, val_main_cst_0_apply]
  unfold Pool.rowMean
  simp only [Ideal.hostDivf_def, Ideal.divf_def, Ideal.ofBits_def, Ideal.ofBits_zero_f32, zero_add]
  refine congrArg (Ideal.div · _) (Finset.sum_congr rfl fun k _ => congrArg x ?_)
  exact funext fun a => Fin.ext (by match a with | ⟨0, _⟩ => rfl | ⟨1, _⟩ => rfl)

/-- The first launch's maximum column, flattened, is the reference's `max`-reduce from −∞. -/
theorem max_eq (x : (⟨S500000x128, .f32⟩ : BufTy).Contents (Elt Ideal)) :
    colVec (Pool.rowMax x) = val_main_v3 (F := Ideal) x := by
  funext i
  obtain ⟨n, rfl⟩ : ∃ n : Fin 500000, i = ix1 n := ⟨i 0, eq_ix1 i⟩
  show shapeCast S500000 (Pool.rowMax x) shapeCasts_S500000x1_S500000 (ix1 n) = _
  rw [shapeCast_a1_a_apply]
  unfold val_main_v3 Pool.rowMax
  refine Eq.symm ((Host.reduce_eq_fold_single (FloatOps.maximumf (F := Ideal) (φ := .f32)) x (val_main_cst_1 (F := Ideal))
    Cert.ReferenceIdeal.Facts₀.reducesTo_S500000x128_S500000_d1 (by decide) Cert.ReferenceIdeal.Facts₀.h_S_ (ix1 n)).trans ?_)
  exact congrArg (fun f => (Finset.univ : Finset (Fin 128)).fold max (FloatOps.ofBits (F := Ideal) .f32 0xFF800000#32) f)
    (funext fun k => congrArg x (funext fun a => Fin.ext (by match a with | ⟨0, _⟩ => rfl | ⟨1, _⟩ => rfl)))

/-! ## The reference's two gathers at a pair -/

/-- The reference's index table for the rows is the kernel program's. -/
theorem rows_table (x3 : (⟨S13500000, .i32⟩ : BufTy).Contents (Elt Ideal)) :
    val_main_v12 (F := Ideal) x3 = asColumn (wrap 500000#32 x3) := rfl

/-- Column 0 of the reference's index table for the weight is the kernel program's offsets table. -/
theorem offs_table (x2 : (⟨S13500000, .i32⟩ : BufTy).Contents (Elt Ideal)) (p : Fin 13500000) :
    val_main_v23 (F := Ideal) x2 (ix2 p (0 : Fin 2)) = asColumn (wrap 27#32 x2) (ix2 p (0 : Fin 1)) := by
  unfold val_main_v23
  exact concatenate_pair_apply_left (t := Cert.ReferenceIdeal.S13500000x2) (s₁ := Cert.ReferenceIdeal.S13500000x1) (s₂ := Cert.ReferenceIdeal.S13500000x1)
    (1 : Fin 2) _ _ _ (ix2 p (0 : Fin 2)) rfl (ix2 p (0 : Fin 1))
    (fun b => by match b with | ⟨0, _⟩ => rfl | ⟨1, _⟩ => rfl)

/-- Column 0 of the stacked matrix is the mean. -/
theorem stacked_mean (x0 : (⟨S500000x128, .f32⟩ : BufTy).Contents (Elt Ideal)) (n : Fin 500000) :
    val_main_v6 (F := Ideal) x0 (ix2 n (0 : Fin 2)) = val_main_v2 (F := Ideal) x0 (ix1 n) := by
  unfold val_main_v6
  rw [concatenate_pair_apply_left (t := Cert.ReferenceIdeal.S500000x2) (s₁ := Cert.ReferenceIdeal.S500000x1) (s₂ := Cert.ReferenceIdeal.S500000x1)
    (1 : Fin 2) _ _ _ (ix2 n (0 : Fin 2)) rfl (ix2 n (0 : Fin 1))
    (fun b => by match b with | ⟨0, _⟩ => rfl | ⟨1, _⟩ => rfl), val_main_v4_apply]
  exact congrArg _ (funext fun a => Fin.ext (by match a with | ⟨0, _⟩ => rfl))

/-- Column 1 of the stacked matrix is the maximum. -/
theorem stacked_max (x0 : (⟨S500000x128, .f32⟩ : BufTy).Contents (Elt Ideal)) (n : Fin 500000) :
    val_main_v6 (F := Ideal) x0 (ix2 n (1 : Fin 2)) = val_main_v3 (F := Ideal) x0 (ix1 n) := by
  unfold val_main_v6
  rw [concatenate_pair_apply_right (t := Cert.ReferenceIdeal.S500000x2) (s₁ := Cert.ReferenceIdeal.S500000x1) (s₂ := Cert.ReferenceIdeal.S500000x1)
    (1 : Fin 2) _ _ _ (ix2 n (1 : Fin 2)) rfl rfl (ix2 n (0 : Fin 1))
    (fun b hb => by match b with | ⟨0, _⟩ => rfl | ⟨1, _⟩ => exact absurd rfl hb) rfl, val_main_v5_apply]
  exact congrArg _ (funext fun a => Fin.ext (by match a with | ⟨0, _⟩ => rfl))

/-- The reference's row gather at pair `p`, column `h`: the stacked matrix at the clamped row. -/
theorem ref_rows (x0 : (⟨S500000x128, .f32⟩ : BufTy).Contents (Elt Ideal)) (x3 : (⟨S13500000, .i32⟩ : BufTy).Contents (Elt Ideal))
    (p : Fin 13500000) (h : Fin 2) :
    val_main_v13 (F := Ideal) x0 x3 (ix2 p h)
      = val_main_v6 (F := Ideal) x0 (ix2 (clampAt 500000 (by decide) (asColumn (wrap 500000#32 x3)) p) h) := by
  unfold val_main_v13
  rw [rows_table]
  exact gather_rows_apply (N := 500000) (H := 2) (E := 13500000) Cert.ReferenceIdeal.gather_S500000x2_S13500000x1_S13500000x2_1_0_n_n_0_1_12
    rfl rfl rfl rfl rfl rfl _ _ p h (by decide)

/-- The reference's weight gather at pair `p`, column `h`: the weight at the clamped offset. -/
theorem ref_weight (x1 : (⟨S27x2x1, .f32⟩ : BufTy).Contents (Elt Ideal)) (x2 : (⟨S13500000, .i32⟩ : BufTy).Contents (Elt Ideal))
    (p : Fin 13500000) (h : Fin 2) :
    val_main_v24 (F := Ideal) x1 x2 (ix2 p h)
      = x1 (ix3 (clampAt 27 (by decide) (asColumn (wrap 27#32 x2)) p) h (0 : Fin 1)) := by
  unfold val_main_v24
  rw [gather_outer_pair_apply (N := 27) (H := 2) (R := 1) (E := 13500000) Cert.ReferenceIdeal.gather_S27x2x1_S13500000x2_S13500000x2_1_02_n_n_02_1_121
    rfl rfl rfl rfl rfl rfl x1 (val_main_v23 (F := Ideal) x2) p h (by decide) (by decide)]
  refine congrArg x1 (funext fun a => Fin.ext ?_)
  match a with
  | ⟨0, _⟩ =>
    show min (val_main_v23 (F := Ideal) x2 (ix2 p (0 : Fin 2))).toInt.toNat (27 - 1)
      = min (asColumn (wrap 27#32 x2) (ix2 p (0 : Fin 1))).toInt.toNat (27 - 1)
    rw [offs_table]
  | ⟨1, _⟩ => rfl
  | ⟨2, _⟩ =>
    show min (val_main_v23 (F := Ideal) x2 (ix2 p (1 : Fin 2))).toInt.toNat (1 - 1) = 0
    omega

/-! ## The contributions, the gate and the result -/

/-- Every pair's contribution is the same number in the two programs. -/
theorem pair_eq (x0 : (⟨S500000x128, .f32⟩ : BufTy).Contents (Elt Ideal)) (x1 : (⟨S27x2x1, .f32⟩ : BufTy).Contents (Elt Ideal))
    (x2 x3 : (⟨S13500000, .i32⟩ : BufTy).Contents (Elt Ideal)) :
    pairSum (colVec (Pool.rowMean x0)) (colVec (Pool.rowMax x0)) (weight0 x1) (weight1 x1) x2 x3
      = val_main_v26 (F := Ideal) x0 x1 x2 x3 := by
  funext i
  obtain ⟨p, rfl⟩ : ∃ p : Fin 13500000, i = ix1 p := ⟨i 0, eq_ix1 i⟩
  have hi0 : idx_main_v26 (ix1 p) (0 : Fin 2) = ix2 p (0 : Fin 2) :=
    funext fun a => Fin.ext (by match a with | ⟨0, _⟩ => rfl | ⟨1, _⟩ => rfl)
  have hi1 : idx_main_v26 (ix1 p) (1 : Fin 2) = ix2 p (1 : Fin 2) :=
    funext fun a => Fin.ext (by match a with | ⟨0, _⟩ => rfl | ⟨1, _⟩ => rfl)
  rw [pairSum_apply, mean_eq, max_eq, val_main_v26_apply, Fin.sum_univ_two, val_main_v25_apply, val_main_v25_apply,
    val_main_cst_6_apply, hi0, hi1, ref_rows, ref_rows, ref_weight, ref_weight, stacked_mean, stacked_max]
  simp only [Ideal.addf_def, Ideal.mulf_def, Ideal.ofBits_def, Ideal.ofBits_zero_f32, zero_add]

/-- The per-row sums of the contributions are one term in the two programs. -/
theorem conv_eq (x0 : (⟨S500000x128, .f32⟩ : BufTy).Contents (Elt Ideal)) (x1 : (⟨S27x2x1, .f32⟩ : BufTy).Contents (Elt Ideal))
    (x2 x3 x4 : (⟨S13500000, .i32⟩ : BufTy).Contents (Elt Ideal)) :
    segSum (pairSum (colVec (Pool.rowMean x0)) (colVec (Pool.rowMax x0)) (weight0 x1) (weight1 x1) x2 x3) x4
      = val_main_v30 (F := Ideal) x0 x1 x2 x3 x4 :=
  (congrArg (fun cb => segSum cb x4) (pair_eq x0 x1 x2 x3)).trans rfl

/-- The kernel program's result is the reference's. -/
theorem result_eq (x0 : (⟨S500000x128, .f32⟩ : BufTy).Contents (Elt Ideal)) (x1 : (⟨S27x2x1, .f32⟩ : BufTy).Contents (Elt Ideal))
    (x2 x3 x4 : (⟨S13500000, .i32⟩ : BufTy).Contents (Elt Ideal)) :
    result x0 x1 x2 x3 x4 = val_main_v39 (F := Ideal) x0 x1 x2 x3 x4 := by
  funext i
  obtain ⟨n, k, rfl⟩ : ∃ (n : Fin 500000) (k : Fin 128), i = ix2 n k := ⟨i 0, i 1, eq_ix2 i⟩
  have hrow : Gate.rowEntry (ix2 n k) = ix2 n (0 : Fin 1) :=
    funext fun a => Fin.ext (by match a with | ⟨0, _⟩ => rfl | ⟨1, _⟩ => rfl)
  have hg : gateCol x0 x1 x2 x3 x4 (Gate.rowEntry (ix2 n k))
      = val_main_v30 (F := Ideal) x0 x1 x2 x3 x4 (idx_main_v37 (idx_main_v38 (ix2 n k))) := by
    unfold gateCol
    show shapeCast S500000x1 (segSum (pairSum (colVec (Pool.rowMean x0)) (colVec (Pool.rowMax x0)) (weight0 x1) (weight1 x1) x2 x3) x4)
      shapeCasts_S500000_S500000x1 (Gate.rowEntry (ix2 n k)) = _
    rw [conv_eq, hrow, shapeCast_a_a1_apply]
    exact congrArg _ (funext fun a => Fin.ext (by match a with | ⟨0, _⟩ => rfl))
  rw [val_main_v39_apply, val_main_v38_apply, val_main_v37_apply, val_main_v36_apply, val_main_v35_apply, val_main_v34_apply,
    val_main_v33_apply, val_main_v32_apply, val_main_v31_apply, val_main_cst_9_apply, val_main_cst_8_apply]
  show FloatOps.mulf (F := Ideal) (φ := .f32) (x0 (ix2 n k)) (FloatOps.logistic (F := Ideal) (φ := .f32) (gateCol x0 x1 x2 x3 x4 (Gate.rowEntry (ix2 n k)))) = _
  rw [hg]
  simp only [Ideal.ofBits_def, Ideal.ofBits_one_f32, Ideal.mulf_def, Ideal.logistic_def, Ideal.hostDivf_def, Ideal.addf_def,
    Ideal.hostUnary_exp_def, Ideal.hostNegf_def, Ideal.negf_def, Ideal.logistic]

end Cert.Bridge

end
-- ==== Proof.lean ====
/-
  A gated pooling layer over 500000 rows of 128 channels, and its jnp reference.

  Both programs compute, for every row n, the mean `a[n]` and the maximum `m[n]` of the row's
  channels; for every pair p = (kidx[p], in_idx[p], out_idx[p]) the contribution
  `a[in] · w[k, 0, 0] + m[in] · w[k, 1, 0]` (an index below zero taken from the axis's end, then
  clamped); the contributions added per output row, `s[n]`; and the result
  `x[n, c] · logistic (s[n])`. The kernel program does the first and the last step in two launches
  over 50 row blocks of 10000 and gathers the four flat vectors separately; the reference stacks
  [mean, max] into one matrix, gathers its rows and the weight's fibres, and reduces the two
  products from 0. At the extended reals the two are one function of the arguments: a lane sum
  and the host's sum from 0 are the same sum, `0 + (u + v) = u + v`, the two programs then apply the
  same scatter-add, and `tpu.logistic s` is `1 / (1 + exp (−s))`. No finiteness is used.

  Frames: the two kernel programs' are the generated ones; the reference's is its run with the
  result dropped. The idealization rewrote nothing, so `preserves` is `True`.
-/
import proofs.«113708_j83717502534258_1_alg».proof.Defs
import proofs.«113708_j83717502534258_1_alg».proof.Proof.Gen.Kernel
import proofs.«113708_j83717502534258_1_alg».proof.Proof.Gen.Kernel.Skeleton
import proofs.«113708_j83717502534258_1_alg».proof.Proof.Gen.Kernel.Launch
import proofs.«113708_j83717502534258_1_alg».proof.Proof.Gen.Kernel.Points
import proofs.«113708_j83717502534258_1_alg».proof.Proof.Gen.Kernel.Frame
import proofs.«113708_j83717502534258_1_alg».proof.Proof.Gen.KernelIdeal
import proofs.«113708_j83717502534258_1_alg».proof.Proof.Gen.KernelIdeal.Skeleton
import proofs.«113708_j83717502534258_1_alg».proof.Proof.Gen.KernelIdeal.Launch
import proofs.«113708_j83717502534258_1_alg».proof.Proof.Gen.KernelIdeal.Points
import proofs.«113708_j83717502534258_1_alg».proof.Proof.Gen.KernelIdeal.Frame
import proofs.«113708_j83717502534258_1_alg».proof.Proof.Gen.ReferenceIdeal
import proofs.«113708_j83717502534258_1_alg».proof.Proof.Gen.Pre_finite_inputs
import proofs.«113708_j83717502534258_1_alg».proof.Proof.RefRun
import proofs.«113708_j83717502534258_1_alg».proof.Proof.RefRead
import proofs.«113708_j83717502534258_1_alg».proof.Proof.KernelValue
import proofs.«113708_j83717502534258_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the five arguments the two idealized programs end with one result:
    the kernel program's `result` of its arguments, which is the reference's last stage of the same arguments. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4⟩ := hagree c
  rw [e0, e1, e2, e3, e4]
  exact (Cert.ReferenceIdeal.ReadP.val_main_v39_eq _ _ _ _ _).trans (Cert.Bridge.result_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
